-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 23
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S1x128, .f32⟩
  | .hbm, ⟨21, _⟩ => ⟨S1x128, .f32⟩
  | .hbm, ⟨22, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.MlpRows.lean ====
/-
  Two dense layers and a rectifier, read row by row at the ideal values.

  The kernel works on a tile `xb` of rows of the aggregated feature matrix `X`: it forms `xb · w₁ + b₁`, feeds that
  (narrowed, which over the extended reals changes nothing) to a second product `· w₂ + b₂`, and takes the maximum with
  zero. The plain program does the same on the whole matrix with two `dot_general`s. Row `r` of the tile being row `n r` of
  `X`, the first layer's tile is row by row the first layer's whole matrix (`Cert.Lib.affine_rows`), so the second layer's
  is too (the same lemma, with the first layer's tile as the rows), and the maximum with zero is taken entry by entry.
  Nothing here depends on the sizes.
-/
import proofs.«128723_j79362405696145_1_alg».proof.Proof.LibAffineRows

noncomputable section

namespace Cert.Mlp

open Idealize.ShloMosaic Idealize.ShloMosaic.ValueIdx Cert.Lib

variable {R N K M P : ℕ}

/-- The kernel's zero, a scalar splat over the tile, and the plain program's, a rank-0 constant broadcast over the
    matrix, are the same extended real at every entry. -/
theorem zero_rows (h0 : (⟨0, ![]⟩ : Shape).BroadcastsInDim ⟨2, ![N, P]⟩ (![] : Fin 0 → Fin 2)) (r : Fin R) (n : Fin N) (q : Fin P) :
    (broadcast ⟨2, ![R, P]⟩ (Scalar.ofBits (F := Ideal) .f32 0x00000000#32) : FVec Ideal ⟨2, ![R, P]⟩ .f32) (ix2 r q)
      = (broadcastInDim ⟨2, ![N, P]⟩ ![] h0 (constant (F := Ideal) ⟨0, ![]⟩ .f32 0x00000000#32) : FVec Ideal ⟨2, ![N, P]⟩ .f32) (ix2 n q) := by
  rw [broadcastInDim_apply _ h0 _ (ix2 n q) ix0 (fun a => a.elim0)]
  rfl

/-- ROW BY ROW, both layers and the rectifier: where row `r` of the tile `xb` is row `n r` of `X` and each bias block's
    row is its bias vector, the tile's `max (0, (xb · w₁ + b₁) · w₂ + b₂)` at `(r, q)` is the whole matrix's at `(n r, q)`. -/
theorem relu_mlp_rows
    {dB1 : DotDims ⟨2, ![R, K]⟩ ⟨2, ![K, M]⟩ ⟨2, ![R, M]⟩} (hB1 : PlainDot dB1)
    {dB2 : DotDims ⟨2, ![R, M]⟩ ⟨2, ![M, P]⟩ ⟨2, ![R, P]⟩} (hB2 : PlainDot dB2)
    {dW1 : DotDims ⟨2, ![N, K]⟩ ⟨2, ![K, M]⟩ ⟨2, ![N, M]⟩} (hW1 : PlainDot dW1)
    {dW2 : DotDims ⟨2, ![N, M]⟩ ⟨2, ![M, P]⟩ ⟨2, ![N, P]⟩} (hW2 : PlainDot dW2)
    (xb : FVec Ideal ⟨2, ![R, K]⟩ .f32) (X : FVec Ideal ⟨2, ![N, K]⟩ .f32)
    (w1 : FVec Ideal ⟨2, ![K, M]⟩ .f32) (w2 : FVec Ideal ⟨2, ![M, P]⟩ .f32)
    (b1blk : FVec Ideal ⟨2, ![1, M]⟩ .f32) (b1 : FVec Ideal ⟨1, ![M]⟩ .f32)
    (b2blk : FVec Ideal ⟨2, ![1, P]⟩ .f32) (b2 : FVec Ideal ⟨1, ![P]⟩ .f32) (n : Fin R → Fin N)
    (hx : ∀ r k, xb (ix2 r k) = X (ix2 (n r) k))
    (hb1 : ∀ q : Fin M, b1blk (ix2 (0 : Fin 1) q) = b1 (ix1 q))
    (hb2 : ∀ q : Fin P, b2blk (ix2 (0 : Fin 1) q) = b2 (ix1 q))
    (ht : FTy.bits .bf16 < FTy.bits .f32)
    (hscM : (⟨2, ![1, M]⟩ : Shape).ShapeCasts ⟨2, ![1, M]⟩) (hbcM : (⟨2, ![1, M]⟩ : Shape).Broadcasts ⟨2, ![R, M]⟩)
    (h1M : (⟨1, ![M]⟩ : Shape).BroadcastsInDim ⟨2, ![1, M]⟩ (![1] : Fin 1 → Fin 2))
    (h2M : (⟨2, ![1, M]⟩ : Shape).BroadcastsInDim ⟨2, ![N, M]⟩ (![0, 1] : Fin 2 → Fin 2))
    (hscP : (⟨2, ![1, P]⟩ : Shape).ShapeCasts ⟨2, ![1, P]⟩) (hbcP : (⟨2, ![1, P]⟩ : Shape).Broadcasts ⟨2, ![R, P]⟩)
    (h1P : (⟨1, ![P]⟩ : Shape).BroadcastsInDim ⟨2, ![1, P]⟩ (![1] : Fin 1 → Fin 2))
    (h2P : (⟨2, ![1, P]⟩ : Shape).BroadcastsInDim ⟨2, ![N, P]⟩ (![0, 1] : Fin 2 → Fin 2))
    (h0 : (⟨0, ![]⟩ : Shape).BroadcastsInDim ⟨2, ![N, P]⟩ (![] : Fin 0 → Fin 2)) (r : Fin R) (q : Fin P) :
    maximumf
        (addf (matmul dB2 none
            (truncf .bf16 (addf (matmul dB1 none (truncf .bf16 xb ht) (truncf .bf16 w1 ht) (constant ⟨2, ![R, M]⟩ .f32 0x00000000#32))
              (broadcastTo ⟨2, ![R, M]⟩ (shapeCast ⟨2, ![1, M]⟩ b1blk hscM) hbcM)) ht)
            (truncf .bf16 w2 ht) (constant ⟨2, ![R, P]⟩ .f32 0x00000000#32))
          (broadcastTo ⟨2, ![R, P]⟩ (shapeCast ⟨2, ![1, P]⟩ b2blk hscP) hbcP))
        (broadcast ⟨2, ![R, P]⟩ (Scalar.ofBits (F := Ideal) .f32 0x00000000#32)) (ix2 r q)
      = maximumf
        (addf (Host.dotGeneral dW2 none
            (addf (Host.dotGeneral dW1 none X w1) (broadcastInDim ⟨2, ![N, M]⟩ ![0, 1] h2M (broadcastInDim ⟨2, ![1, M]⟩ ![1] h1M b1)))
            w2)
          (broadcastInDim ⟨2, ![N, P]⟩ ![0, 1] h2P (broadcastInDim ⟨2, ![1, P]⟩ ![1] h1P b2)))
        (broadcastInDim ⟨2, ![N, P]⟩ ![] h0 (constant ⟨0, ![]⟩ .f32 0x00000000#32)) (ix2 (n r) q) := by
  rw [maximumf_apply, maximumf_apply, zero_rows h0 r (n r) q]
  refine congrArg (fun y => max y _) ?_
  exact affine_rows hB2 hW2 _ _ w2 b2blk b2 n
    (fun r k => affine_rows hB1 hW1 xb X w1 b1blk b1 n hx hb1 ht hscM hbcM h1M h2M r k) hb2 ht hscP hbcP h1P h2P r q

end Cert.Mlp

end
-- ==== Proof.Dense.lean ====
/-
  The dense part of the plain program — two `dot_general`s, each followed by its bias broadcast over the rows, and the
  maximum with zero — as ONE function of the aggregated feature matrix, the two weight matrices and the two bias vectors;
  and the fact that the plain program's dimension numbers describe the textbook product of a [100000, 128] by a
  [128, 128] matrix (contracted: the left operand's column against the right operand's row).
-/
import proofs.«128723_j79362405696145_1_alg».proof.Proof.Gen.ReferenceIdeal.Read
import proofs.«128723_j79362405696145_1_alg».proof.Proof.MlpRows

noncomputable section

namespace Cert.ReferenceIdeal.Dense

open Cert.ReferenceIdeal Cert.ReferenceIdeal.Gen Idealize.ShloMosaic Idealize.ShloMosaic.ValueIdx

/-- `max (0, (A · w₁ + b₁) · w₂ + b₂)` over the whole matrix, spelt with the plain program's own operations. -/
def dense (A : FVec Ideal S100000x128 .f32) (w1 : FVec Ideal S128x128 .f32) (b1 : FVec Ideal S128 .f32)
    (w2 : FVec Ideal S128x128 .f32) (b2 : FVec Ideal S128 .f32) : FVec Ideal S100000x128 .f32 :=
  maximumf
    (addf (Host.dotGeneral dot_S100000x128_S128x128_S100000x128_1_0_0_1_n_n none
        (addf (Host.dotGeneral dot_S100000x128_S128x128_S100000x128_1_0_0_1_n_n none A w1)
          (broadcastInDim S100000x128 ![0, 1] bcast_S1x128_S100000x128_0_1 (broadcastInDim S1x128 ![1] bcast_S128_S1x128_1 b1)))
        w2)
      (broadcastInDim S100000x128 ![0, 1] bcast_S1x128_S100000x128_0_1 (broadcastInDim S1x128 ![1] bcast_S128_S1x128_1 b2)))
    (broadcastInDim S100000x128 ![] bcast_S_S100000x128 (constant S_ .f32 0x00000000#32))

/-- The plain program's products are textbook ones: the generated axis lemmas of its first `dot_general`, bundled. -/
theorem plain_whole : Cert.Lib.PlainDot (R := 100000) (K := 128) (M := 128) dot_S100000x128_S128x128_S100000x128_1_0_0_1_n_n where
  rank := rfl
  size := rfl
  l0 := Cert.ReferenceIdeal.Read.lhs_main_v10_0
  l1 := Cert.ReferenceIdeal.Read.lhs_main_v10_1
  r0 := Cert.ReferenceIdeal.Read.rhs_main_v10_0
  r1 := Cert.ReferenceIdeal.Read.rhs_main_v10_1

/-- The plain program's result, as its run states it, is `dense` of the aggregated features (the scatter-add of the
    gathered rows, which this certificate never opens: both programs compute it by the same operations). -/
theorem result_eq (x0 : FVec Ideal S100000x128 .f32) (x1 x2 : (⟨S1600000, .i32⟩ : BufTy).Contents (Elt Ideal))
    (x3 : FVec Ideal S128x128 .f32) (x4 : FVec Ideal S128 .f32) (x5 : FVec Ideal S128x128 .f32) (x6 : FVec Ideal S128 .f32) :
    Cert.ReferenceIdeal.Read.val_main_v18 (F := Ideal) x0 x1 x2 x3 x4 x5 x6
      = dense (Cert.ReferenceIdeal.Read.val_main_v9 (F := Ideal) x0 x1 x2) x3 x4 x5 x6 := rfl

end Cert.ReferenceIdeal.Dense

end
-- ==== Proof.TileValue.lean ====
/-
  What the kernel's result array holds at the ideal values.

  The kernel walks the aggregated feature matrix (100000 rows of 128) in 50 tiles of 2000 rows. At tile `t` its body
  reads rows `2000 t … 2000 t + 1999` of the matrix, the two whole weight matrices and the two bias rows (each bias
  vector reshaped to one row before the call), and writes the same rows of the result. Row by row the tile's two dense
  layers and rectifier are the whole matrix's (`Cert.Mlp.relu_mlp_rows`), the tiles cover every row, so the result array
  ends holding `dense` of the aggregated features, the weights and the biases.
-/
import proofs.«128723_j79362405696145_1_alg».proof.Proof.Gen.KernelIdeal.Value
import proofs.«128723_j79362405696145_1_alg».proof.Proof.Dense
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.KernelIdeal.Value
open Cert.ReferenceIdeal.Dense (dense plain_whole)

variable (m : (ℓ : Loc nD τ sig) → Buf (Elt Ideal) ℓ) (ρ : Dev nD → PrngReg)

theorem hz : (![0, 0] : Fin 2 → Nat) = fun _ => 0 := funext fun a => by fin_cases a <;> rfl

/-! ## The tile's matrix products are textbook ones -/

theorem lhs_tile_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_tile_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_tile_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_tile_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Both of the body's products contract the left operand's column against the right operand's row. -/
theorem plain_tile : Cert.Lib.PlainDot (R := 2000) (K := 128) (M := 128) dot_S2000x128_S128x128_S2000x128_1_0_0_1_n_n where
  rank := rfl
  size := rfl
  l0 := lhs_tile_0
  l1 := lhs_tile_1
  r0 := rhs_tile_0
  r1 := rhs_tile_1

/-! ## The body's result on a tile, row by row -/

/-- Where row `r` of the loaded tile `x0` is row `n r` of the matrix `A`, and the loaded bias rows are the bias vectors,
    the body's stored value at `(r, q)` is `dense` at `(n r, q)`. -/
theorem pay_rows (x0 : Vec Ideal S2000x128 .f32) (x1 : Vec Ideal S128x128 .f32) (x2 : Vec Ideal S1x128 .f32)
    (x3 : Vec Ideal S128x128 .f32) (x4 : Vec Ideal S1x128 .f32)
    (A : FVec Ideal S100000x128 .f32) (b1 b2 : FVec Ideal S128 .f32) (n : Fin 2000 → Fin 100000)
    (hx : ∀ r k, x0 (ix2 r k) = A (ix2 (n r) k))
    (hb1 : ∀ q : Fin 128, x2 (ix2 (0 : Fin 1) q) = b1 (ix1 q)) (hb2 : ∀ q : Fin 128, x4 (ix2 (0 : Fin 1) q) = b2 (ix1 q))
    (r : Fin 2000) (q : Fin 128) :
    k0_pay1 x0 x1 x2 x3 x4 (ix2 r q) = dense A x1 b1 x3 b2 (ix2 (n r) q) := by
  unfold k0_pay1 dense
  exact Cert.Mlp.relu_mlp_rows plain_tile plain_tile plain_whole plain_whole
    (shapeCast S2000x128 x0 shapeCasts_S2000x128_S2000x128) A x1 x3 x2 b1 x4 b2 n
    (fun r k => by rw [shapeCast_self]; exact hx r k) hb1 hb2 bitsLt_bf16_f32 _ _ _ _ _ _ _ _ _ r q

end Cert.KernelIdeal.Tile

end
-- ==== Proof.Blocks.lean ====
/-
  The blocks the kernel's body is handed at each of its 50 grid points, read as pieces of the arrays the call is made
  on: tile `t` of the feature window is rows `2000 t … 2000 t + 1999`, the result window's block sits at the same rows,
  each weight window's one block is its whole matrix, and each bias window's one block is the bias vector as one row.
-/
import proofs.«128723_j79362405696145_1_alg».proof.Proof.TileValue

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.KernelIdeal.Value

variable (m : (ℓ : Loc nD τ sig) → Buf (Elt Ideal) ℓ) (ρ : Dev nD → PrngReg)

/-! ## The blocks the body is given -/

/-- The printed index maps over the 50 grid points: the feature and result windows move one tile of rows per point,
    the weights and biases stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := lt_of_lt_of_eq t.isLt N_0

/-- Row `r` of tile `t` is row `2000 t + r` of the matrix. -/
def rowOf (t : Fin cfg0.N) (r : Fin 2000) : Fin 100000 :=
  ⟨2000 * t.val + r.val, by have := point_lt t; have := r.isLt; omega⟩

/-- The feature window's block at point `t` holds rows `2000 t …` of whatever array the window is over. -/
theorem xblk_read (c : Dev nD) (t : Fin cfg0.N) (A : Buf (Elt Ideal) ((cfg0.win 0).arr.view.loc (c.tc : Thread nD τ)))
    (r : Fin 2000) (k : Fin 128) :
    (((cfg0.win 0).blk t).view.read (Elt Ideal) A : S2000x128.Idx → Ideal .f32) (ix2 r k)
      = (A : S100000x128.Idx → Ideal .f32) (ix2 (rowOf t r) k) := by
  obtain ⟨e0, e1, -⟩ := idx_facts t
  rw [View.read_apply]
  refine congrArg A ?_
  funext a
  apply Fin.ext
  match a with
  | ⟨0, _⟩ => show win0_0.index t (0 : Fin 2) * 2000 + 1 * r.val = 2000 * t.val + r.val; rw [e0]; omega
  | ⟨1, _⟩ => show win0_0.index t (1 : Fin 2) * 128 + 1 * k.val = k.val; rw [e1]; omega

/-- The first weight window's one block is the whole array it is over. -/
theorem w1blk_read (c : Dev nD) (t : Fin cfg0.N) (A : Buf (Elt Ideal) ((cfg0.win 1).arr.view.loc (c.tc : Thread nD τ))) :
    (((cfg0.win 1).blk t).view.read (Elt Ideal) A : S128x128.Idx → Ideal .f32) = (A : S128x128.Idx → Ideal .f32) := by
  obtain ⟨-, -, e0, e1, -⟩ := idx_facts t
  funext y
  rw [View.read_apply]
  refine congrArg A ?_
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- So is the second weight window's. -/
theorem w2blk_read (c : Dev nD) (t : Fin cfg0.N) (A : Buf (Elt Ideal) ((cfg0.win 3).arr.view.loc (c.tc : Thread nD τ))) :
    (((cfg0.win 3).blk t).view.read (Elt Ideal) A : S128x128.Idx → Ideal .f32) = (A : S128x128.Idx → Ideal .f32) := by
  obtain ⟨-, -, -, -, -, -, e0, e1, -⟩ := idx_facts t
  funext y
  rw [View.read_apply]
  refine congrArg A ?_
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The first bias window's one block is the one row it is over. -/
theorem b1blk_read (c : Dev nD) (t : Fin cfg0.N) (A : Buf (Elt Ideal) ((cfg0.win 2).arr.view.loc (c.tc : Thread nD τ))) (q : Fin 128) :
    (((cfg0.win 2).blk t).view.read (Elt Ideal) A : S1x128.Idx → Ideal .f32) (ix2 (0 : Fin 1) q)
      = (A : S1x128.Idx → Ideal .f32) (ix2 (0 : Fin 1) q) := by
  obtain ⟨-, -, -, -, e0, e1, -⟩ := idx_facts t
  rw [View.read_apply]
  refine congrArg A ?_
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- So is the second bias window's. -/
theorem b2blk_read (c : Dev nD) (t : Fin cfg0.N) (A : Buf (Elt Ideal) ((cfg0.win 4).arr.view.loc (c.tc : Thread nD τ))) (q : Fin 128) :
    (((cfg0.win 4).blk t).view.read (Elt Ideal) A : S1x128.Idx → Ideal .f32) (ix2 (0 : Fin 1) q)
      = (A : S1x128.Idx → Ideal .f32) (ix2 (0 : Fin 1) q) := by
  obtain ⟨-, -, -, -, -, -, -, -, e0, e1, -⟩ := idx_facts t
  rw [View.read_apply]
  refine congrArg A ?_
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- The result window's block at point `t` sits at rows `2000 t …` of the result array. -/
theorem oblk_emb (t : Fin cfg0.N) (r : Fin 2000) (q : Fin 128) :
    (((cfg0.win 5).blk t).view.emb (ix2 r q) : S100000x128.Idx) = ix2 (rowOf t r) q := by
  obtain ⟨-, -, -, -, -, -, -, -, -, -, e0, e1⟩ := idx_facts t
  funext a
  apply Fin.ext
  match a with
  | ⟨0, _⟩ => show win0_5.index t (0 : Fin 2) * 2000 + 1 * r.val = 2000 * t.val + r.val; rw [e0]; omega
  | ⟨1, _⟩ => show win0_5.index t (1 : Fin 2) * 128 + 1 * q.val = q.val; rw [e1]; omega

/-! ## The bias rows -/

/-- Before the call the first bias vector is reshaped to one row. -/
theorem b1row (c : Dev nD) :
    (V m c main_v10 : S1x128.Idx → Ideal .f32) = shapeCast S1x128 (m ((c : Thread nD τ).loc main_arg4)) shapeCasts_S128_S1x128 := by
  dsimp only [Gen.V, Gen.hostOps0]; after_results; rfl

/-- And so is the second. -/
theorem b2row (c : Dev nD) :
    (V m c main_v11 : S1x128.Idx → Ideal .f32) = shapeCast S1x128 (m ((c : Thread nD τ).loc main_arg6)) shapeCasts_S128_S1x128 := by
  dsimp only [Gen.V, Gen.hostOps0]; after_results; rfl

end Cert.KernelIdeal.Tile

end
-- ==== Proof.Result.lean ====
/-
  The kernel's result array after the call, at the ideal values: every grid point writes back rows `2000 t …` of
  `dense` of the aggregated features, the weights and the biases; the 50 tiles cover the 100000 rows; so the array ends
  holding that function, and the argument arrays are as they were.
-/
import proofs.«128723_j79362405696145_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.KernelIdeal.Value
open Cert.ReferenceIdeal.Dense (dense)

variable (m : (ℓ : Loc nD τ sig) → Buf (Elt Ideal) ℓ) (ρ : Dev nD → PrngReg)

/-- The body's stored value with the loaded weight blocks named: the form a grid point's blocks are set against. -/
theorem pay_rows_at (x0 : Vec Ideal S2000x128 .f32) (x1 : Vec Ideal S128x128 .f32) (x2 : Vec Ideal S1x128 .f32)
    (x3 : Vec Ideal S128x128 .f32) (x4 : Vec Ideal S1x128 .f32)
    (A : FVec Ideal S100000x128 .f32) (W1 W2 : FVec Ideal S128x128 .f32) (b1 b2 : FVec Ideal S128 .f32) (n : Fin 2000 → Fin 100000)
    (hx : ∀ r k, x0 (ix2 r k) = A (ix2 (n r) k)) (hw1 : x1 = W1) (hw2 : x3 = W2)
    (hb1 : ∀ q : Fin 128, x2 (ix2 (0 : Fin 1) q) = b1 (ix1 q)) (hb2 : ∀ q : Fin 128, x4 (ix2 (0 : Fin 1) q) = b2 (ix1 q))
    (r : Fin 2000) (q : Fin 128) :
    k0_pay1 x0 x1 x2 x3 x4 (ix2 r q) = dense A W1 b1 W2 b2 (ix2 (n r) q) := by
  subst hw1 hw2
  exact pay_rows x0 x1 x2 x3 x4 A b1 b2 n hx hb1 hb2 r q

/-- The first bias window's block, at `(0, q)`, is the first bias vector at `q`: the window is over the vector
    reshaped to one row. -/
theorem b1_apply (c : Dev nD) (t : Fin cfg0.N) (q : Fin 128) :
    (iblk m c 2 t : Vec Ideal S1x128 .f32) (ix2 (0 : Fin 1) q) = (m ((c : Thread nD τ).loc main_arg4) : S128.Idx → Ideal .f32) (ix1 q) :=
  (b1blk_read c t (V m c (Pipeline.arrRef spec0 2)) q).trans
    ((congrFun (b1row m c) (ix2 (0 : Fin 1) q)).trans (shapeCast_a_1a_apply _ shapeCasts_S128_S1x128 (0 : Fin 1) q))

/-- The second bias window's block likewise. -/
theorem b2_apply (c : Dev nD) (t : Fin cfg0.N) (q : Fin 128) :
    (iblk m c 4 t : Vec Ideal S1x128 .f32) (ix2 (0 : Fin 1) q) = (m ((c : Thread nD τ).loc main_arg6) : S128.Idx → Ideal .f32) (ix1 q) :=
  (b2blk_read c t (V m c (Pipeline.arrRef spec0 4)) q).trans
    ((congrFun (b2row m c) (ix2 (0 : Fin 1) q)).trans (shapeCast_a_1a_apply _ shapeCasts_S128_S1x128 (0 : Fin 1) q))

/-- What a grid point writes back of the result window's staging buffer is the buffer itself: no block overhangs. -/
theorem cut_apply5 (t : Fin cfg0.N) (v : Vec Ideal S2000x128 .f32) (r : Fin 2000) (q : Fin 128) :
    ((cfg0.win 5).cut (grid0.coords t) v : S2000x128.Idx → Ideal .f32) (ix2 r q) = v (ix2 r q) := rfl

/-- An array over the result window, read through point `t`'s block, is the array at rows `2000 t …`. -/
theorem oblk_read (c : Dev nD) (t : Fin cfg0.N) (G : Buf (Elt Ideal) ((cfg0.win 5).arr.view.loc (c.tc : Thread nD τ)))
    (r : Fin 2000) (q : Fin 128) :
    (((cfg0.win 5).blk t).view.read (Elt Ideal) G : S2000x128.Idx → Ideal .f32) (ix2 r q)
      = (G : S100000x128.Idx → Ideal .f32) (ix2 (rowOf t r) q) := by
  rw [View.read_apply]
  exact congrArg G (oblk_emb t r q)

/-- What the result array ends holding: `dense` of the aggregated features and the weights as the call finds them,
    and the two bias vectors. -/
def result (c : Dev nD) : FVec Ideal S100000x128 .f32 :=
  dense (V m c (Pipeline.arrRef spec0 0)) (V m c (Pipeline.arrRef spec0 1)) (m ((c : Thread nD τ).loc main_arg4))
    (V m c (Pipeline.arrRef spec0 3)) (m ((c : Thread nD τ).loc main_arg6))

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S2000x128) hz, View.ld_unit_zero (S := S128x128) hz, View.ld_unit_zero (S := S1x128) hz]
  funext j
  obtain ⟨r, q, rfl⟩ : ∃ (r : Fin 2000) (q : Fin 128), j = ix2 r q := ⟨j 0, j 1, eq_ix2 j⟩
  refine (cut_apply5 t _ r q).trans (Eq.trans ?_ (oblk_read c t (result m c) r q).symm)
  unfold result
  exact pay_rows_at (iblk m c 0 t) (iblk m c 1 t) (iblk m c 2 t) (iblk m c 3 t) (iblk m c 4 t)
    (V m c (Pipeline.arrRef spec0 0)) (V m c (Pipeline.arrRef spec0 1)) (V m c (Pipeline.arrRef spec0 3))
    (m ((c : Thread nD τ).loc main_arg4)) (m ((c : Thread nD τ).loc main_arg6)) (rowOf t)
    (xblk_read c t (V m c (Pipeline.arrRef spec0 0))) (w1blk_read c t (V m c (Pipeline.arrRef spec0 1)))
    (w2blk_read c t (V m c (Pipeline.arrRef spec0 3))) (b1_apply m c t) (b2_apply m c t) r q

end Cert.KernelIdeal.Tile

end
-- ==== Proof.Final.lean ====
/-
  The 50 tiles cover the 100000 rows, so after the call the result array holds `dense` of the aggregated features, the
  weights and the biases; and the aggregated features the call finds are the scatter-add of the gathered rows, computed
  before the call by the very operations the plain program uses. The run, read: the result array at that function of
  the argument arrays, the arguments unchanged.
-/
import proofs.«128723_j79362405696145_1_alg».proof.Proof.Result

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.KernelIdeal.Value
open Cert.ReferenceIdeal.Dense (dense)

variable (m : (ℓ : Loc nD τ sig) → Buf (Elt Ideal) ℓ) (ρ : Dev nD → PrngReg)

/-- An index of the result array is in point `t`'s block iff each coordinate is in the block's range on its axis. -/
theorem mem_oblk (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v12).slice (win0_5.rect t)).set ↔ _
  rw [View.set_slice_whole, Rect.mem_set_unit]
  exact Iff.rfl

/-- Row `n` of the result array is written back by point `n / 2000`. -/
theorem covered (i : S100000x128.Idx) :
    ∃ t : Fin cfg0.N, (cfg0.win 5).flush t = true ∧ i ∈ ((cfg0.win 5).blk t).view.set := by
  have hi0 := idx2_lt0 i
  have hi1 := idx2_lt1 i
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, -, -, e0, e1⟩ := idx_facts t
  refine ⟨t, flush0_5 t, ?_⟩
  rw [mem_oblk]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- THE RESULT ARRAY after the call. -/
theorem final (c : Dev nD) : (dats m 0 c).arrAt 5 cfg0.N = result m c :=
  (dats m 0 c).arrAt_eq_of_cover 5 (result m c) (fun t _ => flushed_eq m c t) covered

/-- The aggregated features the call finds: the scatter-add, by destination node, of the source nodes' gathered rows
    (negative source indices wrapped once), as the operations before the call compute it — the plain program's own
    stage, operation for operation. -/
theorem agg_eq (c : Dev nD) :
    (V m c main_v9 : S100000x128.Idx → Ideal .f32)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]; after_results; rfl

/-- `result` as a function of the argument arrays alone. -/
theorem result_eq (c : Dev nD) :
    result m c = dense (Cert.ReferenceIdeal.Read.val_main_v9 (F := Ideal) (m ((c : Thread nD τ).loc main_arg0))
        (m ((c : Thread nD τ).loc main_arg1)) (m ((c : Thread nD τ).loc main_arg2)))
      (m ((c : Thread nD τ).loc main_arg3)) (m ((c : Thread nD τ).loc main_arg4))
      (m ((c : Thread nD τ).loc main_arg5)) (m ((c : Thread nD τ).loc main_arg6)) := by
  have e0 : (V m c (Pipeline.arrRef spec0 0) : S100000x128.Idx → Ideal .f32) = _ := agg_eq m c
  have e1 : (V m c (Pipeline.arrRef spec0 1) : S128x128.Idx → Ideal .f32) = _ := V_main_arg3 m c
  have e3 : (V m c (Pipeline.arrRef spec0 3) : S128x128.Idx → Ideal .f32) = _ := V_main_arg5 m c
  unfold result
  rw [e0, e1, e3]

/-- The run, read: the result array at `dense` of the aggregated features, the arguments unchanged. -/
theorem run : θ_run defs (onTc (τ := τ) (main (F := Ideal))) ⟨m, fun _ => 0, ρ⟩ fun r => ∀ c : Dev nD,
      r.2.mem ((c : Thread nD τ).loc main_v12)
        = dense (Cert.ReferenceIdeal.Read.val_main_v9 (F := Ideal) (m ((c : Thread nD τ).loc main_arg0))
            (m ((c : Thread nD τ).loc main_arg1)) (m ((c : Thread nD τ).loc main_arg2)))
          (m ((c : Thread nD τ).loc main_arg3)) (m ((c : Thread nD τ).loc main_arg4))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_eq m c)), (h c).2⟩)
    (Value.run_blocks m ρ)

end Cert.KernelIdeal.Tile

end
-- ==== Proof.lean ====
/-
  The certificate of a graph layer: the features of each node's in-neighbours are summed (a gather of source rows and a
  scatter-add by destination, both left to the host in either program), and the sums pass through two dense layers and a
  rectifier, `max (0, (A · W₁ + b₁) · W₂ + b₂)`. The kernel does the dense part on tiles of 2000 rows with narrowed
  operands; the plain program does it on the whole matrix. Over the extended reals narrowing is the identity and a
  matrix unit's product into zeros is the textbook sum, so both results are one function, `dense`, of the same
  aggregated features (Proof/Final.lean for the kernel, the generated run for the plain program). No law of the
  extended reals beyond that is used, so the precondition is never opened. The word-level kernel and the idealized
  kernel run by their generated frames, the plain program by its generated run; the ideal pass rewrote nothing.
-/
import proofs.«128723_j79362405696145_1_alg».proof.Defs
import proofs.«128723_j79362405696145_1_alg».proof.Proof.Gen.Kernel
import proofs.«128723_j79362405696145_1_alg».proof.Proof.Gen.Kernel.Skeleton
import proofs.«128723_j79362405696145_1_alg».proof.Proof.Gen.Kernel.Launch
import proofs.«128723_j79362405696145_1_alg».proof.Proof.Gen.Kernel.Points
import proofs.«128723_j79362405696145_1_alg».proof.Proof.Gen.Kernel.Frame
import proofs.«128723_j79362405696145_1_alg».proof.Proof.Gen.KernelIdeal
import proofs.«128723_j79362405696145_1_alg».proof.Proof.Gen.KernelIdeal.Skeleton
import proofs.«128723_j79362405696145_1_alg».proof.Proof.Gen.KernelIdeal.Launch
import proofs.«128723_j79362405696145_1_alg».proof.Proof.Gen.KernelIdeal.Points
import proofs.«128723_j79362405696145_1_alg».proof.Proof.Gen.KernelIdeal.Frame
import proofs.«128723_j79362405696145_1_alg».proof.Proof.Gen.ReferenceIdeal
import proofs.«128723_j79362405696145_1_alg».proof.Proof.Gen.Pre_finite_inputs
import proofs.«128723_j79362405696145_1_alg».proof.Proof.Gen.KernelIdeal.Value
import proofs.«128723_j79362405696145_1_alg».proof.Proof.Gen.ReferenceIdeal.Run
import proofs.«128723_j79362405696145_1_alg».proof.Proof.Gen.ReferenceIdeal.Read
import proofs.«128723_j79362405696145_1_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result at `dense` of the aggregated
    features, the weights and the biases: the kernel by its tiles, the plain program by its run's own term. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.ReferenceIdeal.Read.val_main_v18_eq _ _ _ _ _ _ _).trans (Cert.ReferenceIdeal.Dense.result_eq _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
